-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000000x100 : Shape := ⟨2, ![1000000, 100]⟩
abbrev S1000000 : Shape := ⟨1, ![1000000]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_v30 : IVec S_ 1) (main_v32 : IVec S16384 1) : IVec S_ 1 :=
  let main_c_13 : IVec S_ 1 := constantI S_ 1 1#1
  let main_v33 : IVec S_ 1 := (fun x v => Host.reduce IntOp.andi x v reducesTo_S16384_S_d0 h_S_) main_v32 main_c_13
  let main_v34 : IVec S_ 1 := andi main_v30 main_v33
  main_v34

def fn_part1 {F : FTy → Type} [FloatOps F] (main_arg0 : IVec S16384 32) (main_arg1 : IVec S16384 32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v18 main_v21
  let main_c_8 : IVec S_ 32 := constantI S_ 32 1000000#32
  let main_v23 : IVec S16384 32 := broadcastInDim S16384 ![] bcast_S_S16384 main_c_8
  let main_v24 : IVec S16384 1 := cmpi .slt main_arg0 main_v23
  let main_c_9 : IVec S_ 1 := constantI S_ 1 1#1
  let main_v25 : IVec S_ 1 := (fun x v => Host.reduce IntOp.andi x v reducesTo_S16384_S_d0 h_S_) main_v24 main_c_9
  let main_v26 : IVec S_ 1 := andi main_v22 main_v25
  let main_c_10 : IVec S_ 32 := constantI S_ 32 0#32
  let main_v27 : IVec S16384 32 := broadcastInDim S16384 ![] bcast_S_S16384 main_c_10
  let main_v28 : IVec S16384 1 := cmpi .sge main_arg1 main_v27
  let main_c_11 : IVec S_ 1 := constantI S_ 1 1#1
  let main_v29 : IVec S_ 1 := (fun x v => Host.reduce IntOp.andi x v reducesTo_S16384_S_d0 h_S_) main_v28 main_c_11
  let main_v30 : IVec S_ 1 := andi main_v26 main_v29
  let main_c_12 : IVec S_ 32 := constantI S_ 32 1000000#32
  let main_v31 : IVec S16384 32 := broadcastInDim S16384 ![] bcast_S_S16384 main_c_12
  let main_v32 : IVec S16384 1 := cmpi .slt main_arg1 main_v31
  fn_part2 (F := F) main_v30 main_v32

def fn {F : FTy → Type} [FloatOps F] (main_arg0 : IVec S16384 32) (main_arg1 : IVec S16384 32) (main_arg2 : FVec F S1000000x100 .f32) (main_arg3 : FVec F S1000000x100 .f32) (main_arg4 : FVec F S1000000 .f32) (main_arg5 : FVec F S1000000 .f32) : IVec S_ 1 :=
  let main_v0 : FVec F S1000000x100 .f32 := Host.absf main_arg2
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_v4 : FVec F S1000000x100 .f32 := Host.absf main_arg3
  let main_cst_0 : FVec F S_ .f32 := constant S_ .f32 0x7F800000#32
  let main_v5 : FVec F S1000000x100 .f32 := broadcastInDim S1000000x100 ![] bcast_S_S1000000x100 main_cst_0
  let main_v6 : IVec S1000000x100 1 := cmpf .olt main_v4 main_v5
  let main_c_1 : IVec S_ 1 := constantI S_ 1 1#1
  let main_v7 : IVec S_ 1 := (fun x v => Host.reduce IntOp.andi x v reducesTo_S1000000x100_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg5
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg0 main_arg1 main_v13 main_v16
-- ==== Kernel.lean ====
abbrev S16384 : Shape := ⟨1, ![16384]⟩
abbrev S1000000x100 : Shape := ⟨2, ![1000000, 100]⟩
abbrev S1000000 : Shape := ⟨1, ![1000000]⟩
abbrev S1000000x1x100 : Shape := ⟨3, ![1000000, 1, 100]⟩
abbrev S1000000x1x1 : Shape := ⟨3, ![1000000, 1, 1]⟩
abbrev S16384x1x1 : Shape := ⟨3, ![16384, 1, 1]⟩
abbrev S1x1x100 : Shape := ⟨3, ![1, 1, 100]⟩
abbrev S1 : Shape := ⟨1, ![1]⟩
abbrev S1x1x1 : Shape := ⟨3, ![1, 1, 1]⟩
abbrev S1x1 : Shape := ⟨2, ![1, 1]⟩

abbrev nBuf : Space → Nat
  | .hbm => 10
  | .vmem => 10
  | .smem => 2
  | _ => 0

abbrev bufTy : (tb : Table) → Fin (tcTables nBuf tb) → BufTy
  | .hbm, ⟨0, _⟩ => ⟨S1000000x100, .f32⟩
  | .hbm, ⟨1, _⟩ => ⟨S1000000x100, .f32⟩
  | .hbm, ⟨2, _⟩ => ⟨S1000000, .f32⟩
  | .hbm, ⟨3, _⟩ => ⟨S1000000, .f32⟩
  | .hbm, ⟨4, _⟩ => ⟨S1000000x1x100, .f32⟩
  | .hbm, ⟨5, _⟩ => ⟨S1000000x1x100, .f32⟩
  | .hbm, ⟨6, _⟩ => ⟨S1000000x1x1, .f32⟩
  | .hbm, ⟨7, _⟩ => ⟨S1000000x1x1, .f32⟩
  | .hbm, ⟨8, _⟩ => ⟨S16384x1x1, .f32⟩
  | .hbm, ⟨9, _⟩ => ⟨S16384, .f32⟩
  | .local _ .vmem, ⟨0, _⟩ => ⟨S1x1x100, .f32⟩
  | .local _ .vmem, ⟨1, _⟩ => ⟨S1x1x100, .f32⟩
  | .local _ .vmem, ⟨2, _⟩ => ⟨S1x1x100, .f32⟩
  | .local _ .vmem, ⟨3, _⟩ => ⟨S1x1x100, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .smem, ⟨0, _⟩ => ⟨S16384, .i32⟩
  | .local _ .smem, ⟨1, _⟩ => ⟨S16384, .i32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1000000x100_S1000000x1x100 : S1000000x100.ShapeCasts S1000000x1x100
  shapeCasts_S1000000_S1000000x1x1 : S1000000.ShapeCasts S1000000x1x1
  numel1_S1 : S1.numel = 1
  inb_S1x1x100_S1x1x100_0_0_0 : ∀ a, (![0, 0, 0] : Fin 3 → Nat) a + S1x1x100.size a ≤ S1x1x100.size a
  h_S1x1x100 : 0 < S1x1x100.numel
  shapeCasts_S1x1x100_S1x1x100 : S1x1x100.ShapeCasts S1x1x100
  reduces_S1x1x100_S1x1 : S1x1x100.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S16384x1x1_S16384 : S16384x1x1.ShapeCasts S16384
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16384x1x1.size a
  hwx0_4 : ∀ i : grid0.Coords, EltTy.bits .f32 = 32 ∨ (Rect.block (s := S16384x1x1) S1x1x1.size (cc0_transform_4 i) (hinb0_4 i)).WholeWords (EltTy.packing .f32)

variable [Facts₀]

abbrev spec0_0 : Pipeline.WinSpec sig grid0.rank :=
  Pipeline.WinSpec.ofSpec (Memref.whole main_v0) S1x1x100.size reads0_0 false false 2 stage0_0 sem0_0 nbuf0_0 hstage0_0

abbrev spec0_1 : Pipeline.WinSpec sig grid0.rank :=
  Pipeline.WinSpec.ofSpec (Memref.whole main_v1) S1x1x100.size reads0_1 false false 2 stage0_1 sem0_1 nbuf0_1 hstage0_1

abbrev spec0_2 : Pipeline.WinSpec sig grid0.rank :=
  Pipeline.WinSpec.ofSpec (Memref.whole main_v2) S1x1x1.size reads0_2 false false 2 stage0_2 sem0_2 nbuf0_2 hstage0_2

abbrev spec0_3 : Pipeline.WinSpec sig grid0.rank :=
  Pipeline.WinSpec.ofSpec (Memref.whole main_v3) S1x1x1.size reads0_3 false false 2 stage0_3 sem0_3 nbuf0_3 hstage0_3

abbrev spec0_4 : Pipeline.WinSpec sig grid0.rank :=
  Pipeline.WinSpec.ofSpec (Memref.whole main_v4) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x100.size a ≤ S1000000x1x100.size a), EltTy.bits .f32 = 32 ∨ (Rect.block (s := S1000000x1x100) S1x1x100.size (cc0_transform_0 k0_off1_inb numel1_S1 pf i) h).WholeWords (EltTy.packing .f32)) ∧
  (∀ i : grid0.Coords, ∃ h : (∀ a, (cc0_transform_1 k0_off1_inb numel1_S1 pf i a + 1) * S1x1x100.size a ≤ S1000000x1x100.size a), EltTy.bits .f32 = 32 ∨ (Rect.block (s := S1000000x1x100) S1x1x100.size (cc0_transform_1 k0_off1_inb numel1_S1 pf i) h).WholeWords (EltTy.packing .f32)) ∧
  (∀ i : grid0.Coords, ∃ h : (∀ a, (cc0_transform_2 k0_off1_inb numel1_S1 pf i a + 1) * S1x1x1.size a ≤ S1000000x1x1.size a), EltTy.bits .f32 = 32 ∨ (Rect.block (s := S1000000x1x1) S1x1x1.size (cc0_transform_2 k0_off1_inb numel1_S1 pf i) h).WholeWords (EltTy.packing .f32)) ∧
  (∀ i : grid0.Coords, ∃ h : (∀ a, (cc0_transform_3 k0_off1_inb numel1_S1 pf i a + 1) * S1x1x1.size a ≤ S1000000x1x1.size a), EltTy.bits .f32 = 32 ∨ (Rect.block (s := S1000000x1x1) S1x1x1.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16384 : Shape := ⟨1, ![16384]⟩
abbrev S1000000x100 : Shape := ⟨2, ![1000000, 100]⟩
abbrev S1000000 : Shape := ⟨1, ![1000000]⟩
abbrev S_ : Shape := ⟨0, ![]⟩
abbrev S16384x1 : Shape := ⟨2, ![16384, 1]⟩
abbrev S16384x100 : Shape := ⟨2, ![16384, 100]⟩

abbrev nBuf : Space → Nat
  | .hbm => 50
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x100, .f32⟩
  | .hbm, ⟨3, _⟩ => ⟨S1000000x100, .f32⟩
  | .hbm, ⟨4, _⟩ => ⟨S1000000, .f32⟩
  | .hbm, ⟨5, _⟩ => ⟨S1000000, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x100, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x100, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384, .f32⟩
  | .hbm, ⟨42, _⟩ => ⟨S16384x100, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x100_S16384_d1 : S16384x100.ReducesTo [1] S16384
  h_S_ : 0 < S_.numel
  gather_S1000000x100_S16384x1_S16384x100_1_0_n_n_0_1_1100_wf : GatherDims.WF S1000000x100 S16384x1 S16384x100 [1] [0] [] [0] [] 1 ![1, 100]
  gather_S1000000_S16384x1_S16384_n_0_n_n_0_1_1_wf : GatherDims.WF S1000000 S16384x1 S16384 [] [0] [] [0] [] 1 ![1]

variable [Facts₀]

def gather_S1000000x100_S16384x1_S16384x100_1_0_n_n_0_1_1100 : GatherDims S1000000x100 S16384x1 S16384x100 where
  offsetDims := [1]
  collapsedSliceDims := [0]
  operandBatchingDims := []
  startIndicesBatchingDims := []
  startIndexMap := [0]
  indexVectorDim := 1
  sliceSizes := ![1, 100]
  wf := gather_S1000000x100_S16384x1_S16384x100_1_0_n_n_0_1_1100_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf

class Facts : Prop extends Facts₀ where

variable [Facts]
-- ==== Proof.LibPreDecode.lean ====
/-
  Reading a printed precondition back. The predicate is a conjunction of one-bit scalars, each the "all" of an array
  of comparison bits. A conjunction that is one has both conjuncts one; an "all" that is one has every bit one; the
  bit of `|x| < +∞` being one says that the extended real `x` is a real number; the bit of a signed comparison of a
  word with a constant being one is the inequality between their signed values.
-/
import Idealize.ShloMosaic.Lib.ReduceAll
import Idealize.ShloMosaic.PureOps.Ideal

namespace Cert.PreDecode

open Idealize.ShloMosaic

variable {s u : Shape} {ax : List (Fin s.rank)}

/-- The shape of a scalar has exactly one index. -/
instance scalarIdxSubsingleton : Subsingleton (⟨0, ![]⟩ : Shape).Idx := ⟨fun _ _ => funext fun d => d.elim0⟩

/-- If the elementwise `and` of two one-bit arrays is one everywhere, the first array is one everywhere. -/
theorem andi_left {a b : IVec s 1} (h : andi a b = fun _ => 1#1) : a = fun _ => 1#1 :=
  funext fun i => (IntOp.andi_eq_one.1 (congrFun h i)).1

/-- If the elementwise `and` of two one-bit arrays is one everywhere, the second array is one everywhere. -/
theorem andi_right {a b : IVec s 1} (h : andi a b = fun _ => 1#1) : b = fun _ => 1#1 :=
  funext fun i => (IntOp.andi_eq_one.1 (congrFun h i)).2

/-- An "all" (a reduction by `and` over every axis, down to a scalar) that is one: every bit reduced is one. -/
theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

/-- An extended real whose absolute value `max x (-x)` is below `+∞` (the value of the pattern `0x7F800000`) is a real
    number: both infinities have absolute value `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The finiteness test of a float array, `all (|x| < +∞)`, came out one: every entry of `x` is a real number. -/
theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

/-- `all (x ≥ c)`, signed, for a constant word `c`, came out one: every word of `x` is at least `c`. -/
theorem sge_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .sge x (broadcastInDim s ![] hb (constantI ⟨0, ![]⟩ 32 c))) init hr hu
      = fun _ => 1#1) (i : s.Idx) : c.toInt ≤ (x i).toInt :=
  IntOp.cmpi_sge.1 (all_of_reduce _ init hr hu h i)

/-- `all (x < c)`, signed, for a constant word `c`, came out one: every word of `x` is below `c`. -/
theorem slt_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .slt x (broadcastInDim s ![] hb (constantI ⟨0, ![]⟩ 32 c))) init hr hu
      = fun _ => 1#1) (i : s.Idx) : (x i).toInt < c.toInt :=
  IntOp.cmpi_slt.1 (all_of_reduce _ init hr hu h i)

end Cert.PreDecode
-- ==== Proof.IndexRange.lean ====
/-
  The precondition read back, as far as the two index arrays go: besides the finiteness of the four float arrays it is
  the conjunction of "every user index ≥ 0", "every user index < 10^6", "every feed index ≥ 0", "every feed index < 10^6",
  each an "all" over the 16384 positions of a signed comparison with a constant. So when the predicate is one, every
  index word has its signed value in [0, 10^6). The float arrays play no part here, whatever their format's reading.
-/
import proofs.«407264_j39350490366306_2_alg».proof.Pre_finite_inputs
import proofs.«407264_j39350490366306_2_alg».proof.Proof.Gen.Pre_finite_inputs
import proofs.«407264_j39350490366306_2_alg».proof.Proof.LibPreDecode

namespace Cert.GatherDot

open Idealize.ShloMosaic Cert.Pre_finite_inputs Cert.PreDecode

variable {F : FTy → Type} [FloatOps F]

/-- Where the precondition holds, both index arrays hold row numbers of the million-row tables. -/
theorem index_ranges (users feeds : IVec S16384 32) (ul fl : FVec F S1000000x100 .f32) (ub fb : FVec F S1000000 .f32)
    (h : Cert.Pre_finite_inputs.fn (F := F) users feeds ul fl ub fb = fun _ => 1#1) :
    (∀ i, 0 ≤ (users i).toInt ∧ (users i).toInt < 1000000) ∧ (∀ i, 0 ≤ (feeds i).toInt ∧ (feeds i).toInt < 1000000) := by
  unfold Cert.Pre_finite_inputs.fn Cert.Pre_finite_inputs.fn_part1 Cert.Pre_finite_inputs.fn_part2 at h
  dsimp only at h
  -- the last four conjuncts of the chain, from the outside in
  have hf1 := andi_right h
  have h3 := andi_left h
  have hf0 := andi_right h3
  have h2 := andi_left h3
  have hu1 := andi_right h2
  have h1 := andi_left h2
  have hu0 := andi_right h1
  have c0 : (0#32 : BitVec 32).toInt = 0 := by decide
  have c1 : (1000000#32 : BitVec 32).toInt = 1000000 := by decide
  refine ⟨fun i => ⟨?_, ?_⟩, fun i => ⟨?_, ?_⟩⟩
  · have := sge_of_reduce users 0#32 Facts.bcast_S_S16384 _ Facts.reducesTo_S16384_S_d0 Facts.h_S_ hu0 i
    rwa [c0] at this
  · have := slt_of_reduce users 1000000#32 Facts.bcast_S_S16384 _ Facts.reducesTo_S16384_S_d0 Facts.h_S_ hu1 i
    rwa [c1] at this
  · have := sge_of_reduce feeds 0#32 Facts.bcast_S_S16384 _ Facts.reducesTo_S16384_S_d0 Facts.h_S_ hf0 i
    rwa [c0] at this
  · have := slt_of_reduce feeds 1000000#32 Facts.bcast_S_S16384 _ Facts.reducesTo_S16384_S_d0 Facts.h_S_ hf1 i
    rwa [c1] at this

end Cert.GatherDot
-- ==== Proof.Score.lean ====
/-
  What both programs compute. For each of the 16384 positions b there is a user index and a feed index; the result at b
  is the inner product of the user's and the feed's rows of the two latent tables (a hundred columns each), plus the
  user's bias, plus the feed's bias, plus one half:

      score b = (Σ_k U[u_b, k] · V[f_b, k]) + p[u_b] + q[f_b] + 1/2 .

  A row index is read from a 32-bit word as a signed number and kept inside the table of a million rows; for a word whose
  signed value already lies in [0, 10^6) that row is the word's unsigned value.
-/
import Idealize.ShloMosaic.PureOps.Ideal
import Idealize.ShloMosaic.Lib.ValueIdx

noncomputable section

open scoped BigOperators

namespace Cert.GatherDot

open Idealize.ShloMosaic Idealize.ShloMosaic.ValueIdx

/-- The table row a signed index word names, kept inside the million rows. -/
def rowOf (w : BitVec 32) : Fin 1000000 := ⟨min w.toInt.toNat (1000000 - 1), by omega⟩

/-- A word with a nonnegative signed value has that value as its unsigned one. -/
theorem toInt_eq_toNat {w : BitVec 32} (h0 : 0 ≤ w.toInt) : w.toInt = (w.toNat : ℤ) := by
  have hlt := w.isLt
  rw [BitVec.toInt_eq_toNat_cond] at h0 ⊢
  split at h0
  · rename_i hc; rw [if_pos hc]
  · omega

/-- A word whose signed value lies in [0, 10^6) is below 10^6 unsigned. -/
theorem toNat_lt {w : BitVec 32} (h0 : 0 ≤ w.toInt) (h1 : w.toInt < 1000000) : w.toNat < 1000000 := by
  rw [toInt_eq_toNat h0] at h1; omega

/-- For such a word keeping the row inside the table changes nothing: the row is the word's unsigned value. -/
theorem rowOf_val {w : BitVec 32} (h0 : 0 ≤ w.toInt) (h1 : w.toInt < 1000000) : (rowOf w).val = w.toNat := by
  have e := toInt_eq_toNat h0
  have hlt := toNat_lt h0 h1
  show min w.toInt.toNat (1000000 - 1) = w.toNat
  rw [e, Int.toNat_natCast]; omega

/-- The score of every position: inner product of the two looked-up rows, plus the two looked-up biases, plus one half
    (the pattern 0x3F000000). -/
def score (users feeds : IVec ⟨1, ![16384]⟩ 32) (ul fl : FVec Ideal ⟨2, ![1000000, 100]⟩ .f32)
    (ub fb : FVec Ideal ⟨1, ![1000000]⟩ .f32) : FVec Ideal ⟨1, ![16384]⟩ .f32 := fun b =>
  (∑ k : Fin 100, ul (ix2 (rowOf (users b)) k) * fl (ix2 (rowOf (feeds b)) k))
    + ub (ix1 (rowOf (users b))) + fb (ix1 (rowOf (feeds b))) + Ideal.ofBits .f32 0x3F000000#32

end Cert.GatherDot

end
-- ==== Proof.TablesWord.lean ====
/-
  The two index arrays as the launch finds them, and why every fetched block lies inside its table.

  The launch reads, at grid point t, the word users[t] (resp. feeds[t]) and fetches row users[t] of the user tables
  (resp. row feeds[t] of the feed tables): block index (word, 0, 0) of a [10^6, 1, C] array in blocks [1, 1, C]. The
  word is read as an unsigned number, so the block is inside the array exactly when the word is below 10^6 unsigned,
  which holds for a word whose signed value is in [0, 10^6). The precondition says that of every word of both index
  arrays; nothing is asked of the float arrays, so all of this holds whatever the reading of the float formats.
-/
import proofs.«407264_j39350490366306_2_alg».proof.Defs
import proofs.«407264_j39350490366306_2_alg».proof.Proof.Gen.Kernel.Frame
import proofs.«407264_j39350490366306_2_alg».proof.Proof.IndexRange
import proofs.«407264_j39350490366306_2_alg».proof.Proof.Score

set_option maxRecDepth 16384

noncomputable section

namespace Cert.Kernel.Tables

open Cert.Kernel Cert.Kernel.Gen Cert.GatherDot
open Idealize.ShloMosaic Idealize.ShloMosaic.TcCoe Idealize.SL.Sem Idealize.ShloMosaic.ValueIdx

variable {F : FTy → Type} [FloatOps F] (m : (ℓ : Loc nD τ sig) → Buf (Elt F) ℓ)

/-- The precondition of a launch memory: the printed predicate of the six argument arrays is one, on every device. -/
abbrev Pre : Prop := ∀ c : Dev nD,
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) = fun _ => 1#1

/-- The first table the launch reads is the user index array as launched, -/
theorem users_eq : tbl m 0 = m (((0 : Dev nD).tc : Thread nD τ).loc main_arg0) := V_main_arg0 m 0
/-- and the second the feed index array. -/
theorem feeds_eq : tbl m 1 = m (((0 : Dev nD).tc : Thread nD τ).loc main_arg1) := V_main_arg1 m 0

/-- Under the precondition every user word has its signed value in [0, 10^6), -/
theorem users_range (h : Pre m) (x : S16384.Idx) : 0 ≤ (tbl m 0 x).toInt ∧ (tbl m 0 x).toInt < 1000000 := by
  rw [users_eq]; exact (index_ranges _ _ _ _ _ _ (h 0)).1 x
/-- and so has every feed word. -/
theorem feeds_range (h : Pre m) (x : S16384.Idx) : 0 ≤ (tbl m 1 x).toInt ∧ (tbl m 1 x).toInt < 1000000 := by
  rw [feeds_eq]; exact (index_ranges _ _ _ _ _ _ (h 0)).2 x

/-- Block index (r, 0, 0) of a [N, 1, C] array in blocks [1, 1, C] is inside the array when r < N. -/
theorem row_block_inside {N C r : Nat} (hr : r < N) (a : Fin 3) :
    ((![r, 0, 0] : Fin 3 → Nat) a + 1) * (![1, 1, C] : Fin 3 → Nat) a ≤ (![N, 1, C] : Fin 3 → Nat) a := by
  match a with
  | ⟨0, _⟩ => show (r + 1) * 1 ≤ N; omega
  | ⟨1, _⟩ => show (0 + 1) * 1 ≤ 1; omega
  | ⟨2, _⟩ => show (0 + 1) * C ≤ C; omega

/-- The grid has one axis, so point t has coordinate t. -/
theorem coord_val (t : Fin grid0.N) : (grid0.coords t 0).val = t.val := by
  have hN : grid0.N = 16384 := N_0
  have ht := t.isLt
  show t.val / grid0.stride 0 % 16384 = t.val
  have hs : grid0.stride 0 = 1 := by decide
  rw [hs, Nat.div_one, Nat.mod_eq_of_lt (by omega)]

/-- The position of the index arrays that grid point t reads. -/
def pos (t : Fin grid0.N) : S16384.Idx := ix1 ⟨t.val, by have := t.isLt; have hN : grid0.N = 16384 := N_0; omega⟩

/-- The word the user index maps read at point t is users[t] (unsigned); -/
theorem user_word (t : Fin grid0.N) :
    cc0_transform_0 Facts₀.k0_off1_inb Facts₀.numel1_S1 (tbl m) (grid0.coords t) 0 = (tbl m 0 (pos t)).toNat := by
  show (tbl m 0 _).toNat = (tbl m 0 (pos t)).toNat
  refine congrArg (fun x => (tbl m 0 x).toNat) (funext fun a => Fin.ext ?_)
  match a with
  | ⟨0, _⟩ =>
    show (BitVec.ofNat 32 (grid0.coords t 0).val).toNat + 1 * 0 = t.val
    have ht := t.isLt; have hN : grid0.N = 16384 := N_0
    rw [BitVec.toNat_ofNat, coord_val, Nat.mod_eq_of_lt (by omega)]; omega
/-- the feed index maps read feeds[t]. -/
theorem feed_word (t : Fin grid0.N) :
    cc0_transform_1 Facts₀.k0_off1_inb Facts₀.numel1_S1 (tbl m) (grid0.coords t) 0 = (tbl m 1 (pos t)).toNat := by
  show (tbl m 1 _).toNat = (tbl m 1 (pos t)).toNat
  refine congrArg (fun x => (tbl m 1 x).toNat) (funext fun a => Fin.ext ?_)
  match a with
  | ⟨0, _⟩ =>
    show (BitVec.ofNat 32 (grid0.coords t 0).val).toNat + 1 * 0 = t.val
    have ht := t.isLt; have hN : grid0.N = 16384 := N_0
    rw [BitVec.toNat_ofNat, coord_val, Nat.mod_eq_of_lt (by omega)]; omega

/-- THE LAUNCH'S SIDE CONDITION from the precondition: each of the four table-indexed windows has, at every grid point,
    its block inside its array (the row word is below 10^6) and moves whole 32-bit words. -/
theorem ok_of_pre (h : Pre m) : Ok m := by
  have hu : ∀ x, (tbl m 0 x).toNat < 1000000 := fun x => toNat_lt (users_range m h x).1 (users_range m h x).2
  have hf : ∀ x, (tbl m 1 x).toNat < 1000000 := fun x => toNat_lt (feeds_range m h x).1 (feeds_range m h x).2
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · exact row_block_inside (N := 1000000) (C := 100) (hu _) a
  · exact row_block_inside (N := 1000000) (C := 100) (hf _) a
  · exact row_block_inside (N := 1000000) (C := 1) (hu _) a
  · exact row_block_inside (N := 1000000) (C := 1) (hf _) a

end Cert.Kernel.Tables

end
-- ==== Proof.TablesIdeal.lean ====
/-
  The two index arrays as the launch finds them, and why every fetched block lies inside its table.

  The launch reads, at grid point t, the word users[t] (resp. feeds[t]) and fetches row users[t] of the user tables
  (resp. row feeds[t] of the feed tables): block index (word, 0, 0) of a [10^6, 1, C] array in blocks [1, 1, C]. The
  word is read as an unsigned number, so the block is inside the array exactly when the word is below 10^6 unsigned,
  which holds for a word whose signed value is in [0, 10^6). The precondition says that of every word of both index
  arrays; nothing is asked of the float arrays, so all of this holds whatever the reading of the float formats.
-/
import proofs.«407264_j39350490366306_2_alg».proof.Defs
import proofs.«407264_j39350490366306_2_alg».proof.Proof.Gen.KernelIdeal.Frame
import proofs.«407264_j39350490366306_2_alg».proof.Proof.IndexRange
import proofs.«407264_j39350490366306_2_alg».proof.Proof.Score

set_option maxRecDepth 16384

noncomputable section

namespace Cert.KernelIdeal.Tables

open Cert.KernelIdeal Cert.KernelIdeal.Gen Cert.GatherDot
open Idealize.ShloMosaic Idealize.ShloMosaic.TcCoe Idealize.SL.Sem Idealize.ShloMosaic.ValueIdx

variable {F : FTy → Type} [FloatOps F] (m : (ℓ : Loc nD τ sig) → Buf (Elt F) ℓ)

/-- The precondition of a launch memory: the printed predicate of the six argument arrays is one, on every device. -/
abbrev Pre : Prop := ∀ c : Dev nD,
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) = fun _ => 1#1

/-- The first table the launch reads is the user index array as launched, -/
theorem users_eq : tbl m 0 = m (((0 : Dev nD).tc : Thread nD τ).loc main_arg0) := V_main_arg0 m 0
/-- and the second the feed index array. -/
theorem feeds_eq : tbl m 1 = m (((0 : Dev nD).tc : Thread nD τ).loc main_arg1) := V_main_arg1 m 0

/-- Under the precondition every user word has its signed value in [0, 10^6), -/
theorem users_range (h : Pre m) (x : S16384.Idx) : 0 ≤ (tbl m 0 x).toInt ∧ (tbl m 0 x).toInt < 1000000 := by
  rw [users_eq]; exact (index_ranges _ _ _ _ _ _ (h 0)).1 x
/-- and so has every feed word. -/
theorem feeds_range (h : Pre m) (x : S16384.Idx) : 0 ≤ (tbl m 1 x).toInt ∧ (tbl m 1 x).toInt < 1000000 := by
  rw [feeds_eq]; exact (index_ranges _ _ _ _ _ _ (h 0)).2 x

/-- Block index (r, 0, 0) of a [N, 1, C] array in blocks [1, 1, C] is inside the array when r < N. -/
theorem row_block_inside {N C r : Nat} (hr : r < N) (a : Fin 3) :
    ((![r, 0, 0] : Fin 3 → Nat) a + 1) * (![1, 1, C] : Fin 3 → Nat) a ≤ (![N, 1, C] : Fin 3 → Nat) a := by
  match a with
  | ⟨0, _⟩ => show (r + 1) * 1 ≤ N; omega
  | ⟨1, _⟩ => show (0 + 1) * 1 ≤ 1; omega
  | ⟨2, _⟩ => show (0 + 1) * C ≤ C; omega

/-- The grid has one axis, so point t has coordinate t. -/
theorem coord_val (t : Fin grid0.N) : (grid0.coords t 0).val = t.val := by
  have hN : grid0.N = 16384 := N_0
  have ht := t.isLt
  show t.val / grid0.stride 0 % 16384 = t.val
  have hs : grid0.stride 0 = 1 := by decide
  rw [hs, Nat.div_one, Nat.mod_eq_of_lt (by omega)]

/-- The position of the index arrays that grid point t reads. -/
def pos (t : Fin grid0.N) : S16384.Idx := ix1 ⟨t.val, by have := t.isLt; have hN : grid0.N = 16384 := N_0; omega⟩

/-- The word the user index maps read at point t is users[t] (unsigned); -/
theorem user_word (t : Fin grid0.N) :
    cc0_transform_0 Facts₀.k0_off1_inb Facts₀.numel1_S1 (tbl m) (grid0.coords t) 0 = (tbl m 0 (pos t)).toNat := by
  show (tbl m 0 _).toNat = (tbl m 0 (pos t)).toNat
  refine congrArg (fun x => (tbl m 0 x).toNat) (funext fun a => Fin.ext ?_)
  match a with
  | ⟨0, _⟩ =>
    show (BitVec.ofNat 32 (grid0.coords t 0).val).toNat + 1 * 0 = t.val
    have ht := t.isLt; have hN : grid0.N = 16384 := N_0
    rw [BitVec.toNat_ofNat, coord_val, Nat.mod_eq_of_lt (by omega)]; omega
/-- the feed index maps read feeds[t]. -/
theorem feed_word (t : Fin grid0.N) :
    cc0_transform_1 Facts₀.k0_off1_inb Facts₀.numel1_S1 (tbl m) (grid0.coords t) 0 = (tbl m 1 (pos t)).toNat := by
  show (tbl m 1 _).toNat = (tbl m 1 (pos t)).toNat
  refine congrArg (fun x => (tbl m 1 x).toNat) (funext fun a => Fin.ext ?_)
  match a with
  | ⟨0, _⟩ =>
    show (BitVec.ofNat 32 (grid0.coords t 0).val).toNat + 1 * 0 = t.val
    have ht := t.isLt; have hN : grid0.N = 16384 := N_0
    rw [BitVec.toNat_ofNat, coord_val, Nat.mod_eq_of_lt (by omega)]; omega

/-- THE LAUNCH'S SIDE CONDITION from the precondition: each of the four table-indexed windows has, at every grid point,
    its block inside its array (the row word is below 10^6) and moves whole 32-bit words. -/
theorem ok_of_pre (h : Pre m) : Ok m := by
  have hu : ∀ x, (tbl m 0 x).toNat < 1000000 := fun x => toNat_lt (users_range m h x).1 (users_range m h x).2
  have hf : ∀ x, (tbl m 1 x).toNat < 1000000 := fun x => toNat_lt (feeds_range m h x).1 (feeds_range m h x).2
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · exact row_block_inside (N := 1000000) (C := 100) (hu _) a
  · exact row_block_inside (N := 1000000) (C := 100) (hf _) a
  · exact row_block_inside (N := 1000000) (C := 1) (hu _) a
  · exact row_block_inside (N := 1000000) (C := 1) (hf _) a

end Cert.KernelIdeal.Tables

end
-- ==== Proof.KernelValue.lean ====
/-
  What the idealized kernel leaves in its result, read off its frame run.

  One grid point per position b. At point b the launch has fetched row users[b] of the two user arrays and row feeds[b]
  of the two feed arrays; the body multiplies the two latent rows lane by lane, sums the hundred lanes, adds the two
  biases and one half, and stores that single number as block b of the [16384, 1, 1] result. So block b of the result
  is the score of position b; the blocks tile the result; and the reshape that follows drops the two unit axes.
-/
import proofs.«407264_j39350490366306_2_alg».proof.Proof.TablesIdeal
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.ScoreValue

open Cert.KernelIdeal Cert.KernelIdeal.Gen Cert.KernelIdeal.Tables Cert.GatherDot
open Idealize.ShloMosaic Idealize.ShloMosaic.TcCoe Idealize.ShloMosaic.Tactic Idealize.SL.Sem Idealize.ShloMosaic.ValueIdx
open Idealize.ShloMosaic.Pipeline (Dat)

/-! ## The body's one store -/

section Body
variable {F : FTy → Type} [FloatOps F]

theorem zero3 : (![0, 0, 0] : Fin 3 → Nat) = fun _ => 0 := by
  funext a; match a with | ⟨0, _⟩ => rfl | ⟨1, _⟩ => rfl | ⟨2, _⟩ => rfl

/-- The output block after the body is the body's one stored value, as a function of the four blocks it loaded: the
    store covers the whole [1, 1, 1] block and every load reads a whole staging buffer. -/
theorem out_eq_pay (c : Dev nD) (i : grid0.Coords) (arg3 : Memref sig .tc .vmem S1x1x100 .f32) (harg3 : arg3.IsWhole) (arg4 : Memref sig .tc .vmem S1x1x100 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (x0 : Vec F S1x1x100 .f32) (x1 : Vec F S1x1x100 .f32) (x2 : Vec F S1x1x1 .f32) (x3 : Vec F S1x1x1 .f32) (xt0 : TbBuf0 (F := F) c tbM0_0) (xt1 : TbBuf0 (F := F) c tbM0_1) :
    out0_A_4 c i arg3 harg3 arg4 harg4 arg5 harg5 arg6 harg6 arg7 harg7 x0 x1 x2 x3 xt0 xt1 = k0_pay1 x0 x1 x2 x3 := by
  unfold out0_A_4
  rw [View.read_writes_eq_canon _ _ _ (cover0_A_4 c i arg3 harg3 arg4 harg4 arg5 harg5 arg6 harg6 arg7 harg7 x0 x1 x2 x3 xt0 xt1)]
  unfold kernelRun0_A
  dsimp only
  sl_unfold_words
  rw [View.canon_unit_zero zero3]
  simp only [View.readAt_eq_ld, Memref.IsWhole.read_unread, View.ld_unit_zero (S := S1x1x100) zero3, View.ld_unit_zero (S := S1x1x1) zero3]

end Body

/-- A [1, 1, 1] block has one index. -/
theorem idx111 (j : S1x1x1.Idx) : j = ix3 (0 : Fin 1) (0 : Fin 1) (0 : Fin 1) := by
  funext a; refine Fin.ext ?_
  match a with
  | ⟨0, h0⟩ => exact Nat.lt_one_iff.mp (j ⟨0, h0⟩).isLt
  | ⟨1, h1⟩ => exact Nat.lt_one_iff.mp (j ⟨1, h1⟩).isLt
  | ⟨2, h2⟩ => exact Nat.lt_one_iff.mp (j ⟨2, h2⟩).isLt

/-- The stored number, over the extended reals: the sum over the hundred lanes of the products of the two latent blocks,
    plus the two bias blocks' entries, plus one half. (The lane reduction starts from the neutral element of the sum,
    so it is the plain sum; the shape casts move nothing.) -/
theorem pay_apply (x0 x1 : Vec Ideal S1x1x100 .f32) (x2 x3 : Vec Ideal S1x1x1 .f32) (j : S1x1x1.Idx) :
    k0_pay1 (F := Ideal) x0 x1 x2 x3 j
      = (∑ k : Fin 100, x0 (ix3 (0 : Fin 1) (0 : Fin 1) k) * x1 (ix3 (0 : Fin 1) (0 : Fin 1) k))
        + x2 (ix3 (0 : Fin 1) (0 : Fin 1) (0 : Fin 1)) + x3 (ix3 (0 : Fin 1) (0 : Fin 1) (0 : Fin 1)) + Ideal.ofBits .f32 0x3F000000#32 := by
  obtain rfl := idx111 j
  unfold k0_pay1
  dsimp only
  rw [addf_apply, addf_apply, addf_apply]
  simp only [shapeCast_self]
  refine congrArg₂ (· + ·) (congrArg₂ (· + ·) (congrArg₂ (· + ·) ?_ rfl) rfl) rfl
  refine (shapeCast_apply _ _ (ix3 (0 : Fin 1) (0 : Fin 1) (0 : Fin 1)) (ix2 (0 : Fin 1) (0 : Fin 1)) rfl).trans ?_
  refine (Ideal.multiReduction_add_single (s := S1x1x100) (t := S1x1) (a := (2 : Fin 3)) _ _ _ _ _ (ix2 (0 : Fin 1) (0 : Fin 1))).trans ?_
  refine Finset.sum_congr rfl fun k _ => ?_
  have e : ∀ h : S1x1x100.Reduces [2] S1x1, h.lift (ix2 (0 : Fin 1) (0 : Fin 1)) k = ix3 (0 : Fin 1) (0 : Fin 1) k := fun h =>
    funext fun a => Fin.ext (by match a with | ⟨0, _⟩ => rfl | ⟨1, _⟩ => rfl | ⟨2, _⟩ => rfl)
  rw [e]; rfl

/-! ## The four arrays the launch reads: the arguments with unit axes inserted -/

variable (m : (ℓ : Loc nD τ sig) → Buf (Elt Ideal) ℓ) (ρ : Dev nD → PrngReg)

/-- The user latent array as the launch finds it, at (r, 0, k), is the argument at (r, k). -/
theorem users_latent_apply (c : Dev nD) (r : Fin 1000000) (k : Fin 100) :
    (V m c main_v0 : S1000000x1x100.Idx → EReal) (ix3 r (0 : Fin 1) k) = m ((c.tc : Thread nD τ).loc main_arg2) (ix2 r k) := by
  have e : (V m c main_v0 : S1000000x1x100.Idx → EReal)
      = shapeCast S1000000x1x100 (m ((c.tc : Thread nD τ).loc main_arg2)) Facts₀.shapeCasts_S1000000x100_S1000000x1x100 := by
    show StableHlo.after hostOps0 (fun b => m (c, b)) (Proc.devRef .tc main_v0) = _
    after_results
    rfl
  rw [e]
  refine shapeCast_apply _ _ (ix3 r (0 : Fin 1) k) (ix2 r k) ?_
  rw [Shape.rowMajor_val_two, Shape.rowMajor_val_three]
  show r.val * 100 + k.val = (r.val * 1 + 0) * 100 + k.val
  omega

/-- The feed latent array likewise. -/
theorem feeds_latent_apply (c : Dev nD) (r : Fin 1000000) (k : Fin 100) :
    (V m c main_v1 : S1000000x1x100.Idx → EReal) (ix3 r (0 : Fin 1) k) = m ((c.tc : Thread nD τ).loc main_arg3) (ix2 r k) := by
  have e : (V m c main_v1 : S1000000x1x100.Idx → EReal)
      = shapeCast S1000000x1x100 (m ((c.tc : Thread nD τ).loc main_arg3)) Facts₀.shapeCasts_S1000000x100_S1000000x1x100 := by
    show StableHlo.after hostOps0 (fun b => m (c, b)) (Proc.devRef .tc main_v1) = _
    after_results
    rfl
  rw [e]
  refine shapeCast_apply _ _ (ix3 r (0 : Fin 1) k) (ix2 r k) ?_
  rw [Shape.rowMajor_val_two, Shape.rowMajor_val_three]
  show r.val * 100 + k.val = (r.val * 1 + 0) * 100 + k.val
  omega

/-- The user bias array as the launch finds it, at (r, 0, 0), is the argument at r. -/
theorem users_bias_apply (c : Dev nD) (r : Fin 1000000) :
    (V m c main_v2 : S1000000x1x1.Idx → EReal) (ix3 r (0 : Fin 1) (0 : Fin 1)) = m ((c.tc : Thread nD τ).loc main_arg4) (ix1 r) := by
  have e : (V m c main_v2 : S1000000x1x1.Idx → EReal)
      = shapeCast S1000000x1x1 (m ((c.tc : Thread nD τ).loc main_arg4)) Facts₀.shapeCasts_S1000000_S1000000x1x1 := by
    show StableHlo.after hostOps0 (fun b => m (c, b)) (Proc.devRef .tc main_v2) = _
    after_results
    rfl
  rw [e]
  refine shapeCast_apply _ _ (ix3 r (0 : Fin 1) (0 : Fin 1)) (ix1 r) ?_
  rw [Shape.rowMajor_val_one, Shape.rowMajor_val_three]
  show r.val = (r.val * 1 + 0) * 1 + 0
  omega

/-- The feed bias array likewise. -/
theorem feeds_bias_apply (c : Dev nD) (r : Fin 1000000) :
    (V m c main_v3 : S1000000x1x1.Idx → EReal) (ix3 r (0 : Fin 1) (0 : Fin 1)) = m ((c.tc : Thread nD τ).loc main_arg5) (ix1 r) := by
  have e : (V m c main_v3 : S1000000x1x1.Idx → EReal)
      = shapeCast S1000000x1x1 (m ((c.tc : Thread nD τ).loc main_arg5)) Facts₀.shapeCasts_S1000000_S1000000x1x1 := by
    show StableHlo.after hostOps0 (fun b => m (c, b)) (Proc.devRef .tc main_v3) = _
    after_results
    rfl
  rw [e]
  refine shapeCast_apply _ _ (ix3 r (0 : Fin 1) (0 : Fin 1)) (ix1 r) ?_
  rw [Shape.rowMajor_val_one, Shape.rowMajor_val_three]
  show r.val = (r.val * 1 + 0) * 1 + 0
  omega

/-! ## The blocks fetched at a point -/

/-- The four input blocks at grid point t, at their literal shapes: the user and feed latent rows, the user and feed
    bias entries. -/
abbrev ublk (hO : Ok m) (c : Dev nD) (t : Fin (cfgM m hO).N) : Vec Ideal S1x1x100 .f32 := iblk m hO c 0 t
abbrev fblk (hO : Ok m) (c : Dev nD) (t : Fin (cfgM m hO).N) : Vec Ideal S1x1x100 .f32 := iblk m hO c 1 t
abbrev ubia (hO : Ok m) (c : Dev nD) (t : Fin (cfgM m hO).N) : Vec Ideal S1x1x1 .f32 := iblk m hO c 2 t
abbrev fbia (hO : Ok m) (c : Dev nD) (t : Fin (cfgM m hO).N) : Vec Ideal S1x1x1 .f32 := iblk m hO c 3 t

/-- The user latent block at point t, lane k: row r of the array, where r is the row the index map names there. -/
theorem ublk_apply (hO : Ok m) (c : Dev nD) (t : Fin (cfgM m hO).N) (r : Fin 1000000)
    (hr : cc0_transform_0 Facts₀.k0_off1_inb Facts₀.numel1_S1 (tbl m) (grid0.coords t) 0 = r.val) (k : Fin 100) :
    ublk m hO c t (ix3 (0 : Fin 1) (0 : Fin 1) k) = (V m c main_v0 : S1000000x1x100.Idx → EReal) (ix3 r (0 : Fin 1) k) := by
  show (V m c main_v0 : S1000000x1x100.Idx → EReal) ((((cfgM m hO).win 0).blk t).view.emb (ix3 (0 : Fin 1) (0 : Fin 1) k)) = _
  refine congrArg (V m c main_v0 : S1000000x1x100.Idx → EReal) (funext fun a => Fin.ext ?_)
  match a with
  | ⟨0, _⟩ =>
    show cc0_transform_0 Facts₀.k0_off1_inb Facts₀.numel1_S1 (tbl m) (grid0.coords t) 0 * 1 + 1 * 0 = r.val
    omega
  | ⟨1, _⟩ => rfl
  | ⟨2, _⟩ =>
    show 0 * 100 + 1 * k.val = k.val
    omega

/-- The feed latent block at point t, lane k. -/
theorem fblk_apply (hO : Ok m) (c : Dev nD) (t : Fin (cfgM m hO).N) (r : Fin 1000000)
    (hr : cc0_transform_1 Facts₀.k0_off1_inb Facts₀.numel1_S1 (tbl m) (grid0.coords t) 0 = r.val) (k : Fin 100) :
    fblk m hO c t (ix3 (0 : Fin 1) (0 : Fin 1) k) = (V m c main_v1 : S1000000x1x100.Idx → EReal) (ix3 r (0 : Fin 1) k) := by
  show (V m c main_v1 : S1000000x1x100.Idx → EReal) ((((cfgM m hO).win 1).blk t).view.emb (ix3 (0 : Fin 1) (0 : Fin 1) k)) = _
  refine congrArg (V m c main_v1 : S1000000x1x100.Idx → EReal) (funext fun a => Fin.ext ?_)
  match a with
  | ⟨0, _⟩ =>
    show cc0_transform_1 Facts₀.k0_off1_inb Facts₀.numel1_S1 (tbl m) (grid0.coords t) 0 * 1 + 1 * 0 = r.val
    omega
  | ⟨1, _⟩ => rfl
  | ⟨2, _⟩ =>
    show 0 * 100 + 1 * k.val = k.val
    omega

/-- The user bias block at point t. -/
theorem ubia_apply (hO : Ok m) (c : Dev nD) (t : Fin (cfgM m hO).N) (r : Fin 1000000)
    (hr : cc0_transform_2 Facts₀.k0_off1_inb Facts₀.numel1_S1 (tbl m) (grid0.coords t) 0 = r.val) :
    ubia m hO c t (ix3 (0 : Fin 1) (0 : Fin 1) (0 : Fin 1)) = (V m c main_v2 : S1000000x1x1.Idx → EReal) (ix3 r (0 : Fin 1) (0 : Fin 1)) := by
  show (V m c main_v2 : S1000000x1x1.Idx → EReal) ((((cfgM m hO).win 2).blk t).view.emb (ix3 (0 : Fin 1) (0 : Fin 1) (0 : Fin 1))) = _
  refine congrArg (V m c main_v2 : S1000000x1x1.Idx → EReal) (funext fun a => Fin.ext ?_)
  match a with
  | ⟨0, _⟩ =>
    show cc0_transform_2 Facts₀.k0_off1_inb Facts₀.numel1_S1 (tbl m) (grid0.coords t) 0 * 1 + 1 * 0 = r.val
    omega
  | ⟨1, _⟩ => rfl
  | ⟨2, _⟩ => rfl

/-- The feed bias block at point t. -/
theorem fbia_apply (hO : Ok m) (c : Dev nD) (t : Fin (cfgM m hO).N) (r : Fin 1000000)
    (hr : cc0_transform_3 Facts₀.k0_off1_inb Facts₀.numel1_S1 (tbl m) (grid0.coords t) 0 = r.val) :
    fbia m hO c t (ix3 (0 : Fin 1) (0 : Fin 1) (0 : Fin 1)) = (V m c main_v3 : S1000000x1x1.Idx → EReal) (ix3 r (0 : Fin 1) (0 : Fin 1)) := by
  show (V m c main_v3 : S1000000x1x1.Idx → EReal) ((((cfgM m hO).win 3).blk t).view.emb (ix3 (0 : Fin 1) (0 : Fin 1) (0 : Fin 1))) = _
  refine congrArg (V m c main_v3 : S1000000x1x1.Idx → EReal) (funext fun a => Fin.ext ?_)
  match a with
  | ⟨0, _⟩ =>
    show cc0_transform_3 Facts₀.k0_off1_inb Facts₀.numel1_S1 (tbl m) (grid0.coords t) 0 * 1 + 1 * 0 = r.val
    omega
  | ⟨1, _⟩ => rfl
  | ⟨2, _⟩ => rfl

/-! ## The result array -/

/-- The scores of the launch memory's arguments on core c. -/
abbrev scores (c : Dev nD) : FVec Ideal ⟨1, ![16384]⟩ .f32 :=
  score (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- What the [16384, 1, 1] result of the launch ends holding: the score of position b at (b, 0, 0). -/
abbrev scores3 (c : Dev nD) : S16384x1x1.Idx → EReal := fun j => scores m c (ix1 (⟨(j 0).val, (j 0).isLt⟩ : Fin 16384))

/-- WHAT POINT t LEAVES in the output block is the score of position t. -/
theorem outs_eq (h : Pre m) (c : Dev nD) (t : Fin (cfgM m (ok_of_pre m h)).N) (j : S1x1x1.Idx) :
    outsAt0 m (ok_of_pre m h) c t j = scores m c (pos t) := by
  obtain rfl : c = 0 := Subsingleton.elim _ _
  have hu := users_range m h (pos t)
  have hf := feeds_range m h (pos t)
  have ru : cc0_transform_0 Facts₀.k0_off1_inb Facts₀.numel1_S1 (tbl m) (grid0.coords t) 0 = (rowOf (tbl m 0 (pos t))).val :=
    (user_word m t).trans (rowOf_val hu.1 hu.2).symm
  have rf : cc0_transform_1 Facts₀.k0_off1_inb Facts₀.numel1_S1 (tbl m) (grid0.coords t) 0 = (rowOf (tbl m 1 (pos t))).val :=
    (feed_word m t).trans (rowOf_val hf.1 hf.2).symm
  unfold outsAt0
  refine (congrFun (out_eq_pay (F := Ideal) 0 (grid0.coords t) (ms0_0 m (ok_of_pre m h) t) (hs0_0 m (ok_of_pre m h) t) (ms0_1 m (ok_of_pre m h) t) (hs0_1 m (ok_of_pre m h) t) (ms0_2 m (ok_of_pre m h) t) (hs0_2 m (ok_of_pre m h) t) (ms0_3 m (ok_of_pre m h) t) (hs0_3 m (ok_of_pre m h) t) (ms0_4 m (ok_of_pre m h) t) (hs0_4 m (ok_of_pre m h) t)
    (ublk m (ok_of_pre m h) 0 t) (fblk m (ok_of_pre m h) 0 t) (ubia m (ok_of_pre m h) 0 t) (fbia m (ok_of_pre m h) 0 t) (tbl m 0) (tbl m 1)) j).trans ?_
  refine (pay_apply (ublk m (ok_of_pre m h) 0 t) (fblk m (ok_of_pre m h) 0 t) (ubia m (ok_of_pre m h) 0 t) (fbia m (ok_of_pre m h) 0 t) j).trans ?_
  have e0 : ∀ k : Fin 100, ublk m (ok_of_pre m h) 0 t (ix3 (0 : Fin 1) (0 : Fin 1) k)
      = m (((0 : Dev nD).tc : Thread nD τ).loc main_arg2) (ix2 (rowOf (tbl m 0 (pos t))) k) := fun k =>
    (ublk_apply m (ok_of_pre m h) 0 t (rowOf (tbl m 0 (pos t))) ru k).trans (users_latent_apply m 0 (rowOf (tbl m 0 (pos t))) k)
  have e1 : ∀ k : Fin 100, fblk m (ok_of_pre m h) 0 t (ix3 (0 : Fin 1) (0 : Fin 1) k)
      = m (((0 : Dev nD).tc : Thread nD τ).loc main_arg3) (ix2 (rowOf (tbl m 1 (pos t))) k) := fun k =>
    (fblk_apply m (ok_of_pre m h) 0 t (rowOf (tbl m 1 (pos t))) rf k).trans (feeds_latent_apply m 0 (rowOf (tbl m 1 (pos t))) k)
  have e2 : ubia m (ok_of_pre m h) 0 t (ix3 (0 : Fin 1) (0 : Fin 1) (0 : Fin 1))
      = m (((0 : Dev nD).tc : Thread nD τ).loc main_arg4) (ix1 (rowOf (tbl m 0 (pos t)))) :=
    (ubia_apply m (ok_of_pre m h) 0 t (rowOf (tbl m 0 (pos t))) ru).trans (users_bias_apply m 0 (rowOf (tbl m 0 (pos t))))
  have e3 : fbia m (ok_of_pre m h) 0 t (ix3 (0 : Fin 1) (0 : Fin 1) (0 : Fin 1))
      = m (((0 : Dev nD).tc : Thread nD τ).loc main_arg5) (ix1 (rowOf (tbl m 1 (pos t)))) :=
    (fbia_apply m (ok_of_pre m h) 0 t (rowOf (tbl m 1 (pos t))) rf).trans (feeds_bias_apply m 0 (rowOf (tbl m 1 (pos t))))
  refine (congrArg₂ (· + ·) (congrArg₂ (· + ·) (congrArg₂ (· + ·)
    (Finset.sum_congr rfl fun k _ => congrArg₂ (· * ·) (e0 k) (e1 k)) e2) e3) rfl).trans ?_
  rw [users_eq m, feeds_eq m]
  rfl

/-- The result's index map at point t names block t. -/
theorem out_word (t : Fin grid0.N) : cc0_transform_4 (grid0.coords t) 0 = t.val := by
  show (BitVec.ofNat 32 (grid0.coords t 0).val).toNat = t.val
  have ht := t.isLt; have hN : grid0.N = 16384 := N_0
  rw [BitVec.toNat_ofNat, coord_val, Nat.mod_eq_of_lt (by omega)]

/-- The one index of a [1, 1, 1] block has leading coordinate 0. -/
theorem lead111 (z : S1x1x1.Idx) : (z 0).val = 0 := Nat.lt_one_iff.mp (z 0).isLt

/-- The leading coordinate of an index of the [16384, 1, 1] result. -/
abbrev lead3 (z : S16384x1x1.Idx) : Nat := (z 0).val

/-- Block t of the result starts at row t. -/
theorem out_block_lead (hO : Ok m) (t : Fin (cfgM m hO).N) (y : S1x1x1.Idx) :
    lead3 ((((cfgM m hO).win 4).blk t).view.emb y) = t.val := by
  show cc0_transform_4 (grid0.coords t) 0 * 1 + 1 * (y 0).val = t.val
  rw [out_word, lead111 y]; omega

/-- What point t writes back is block t of the score array. -/
theorem flushed_eq (h : Pre m) (c : Dev nD) (t : Fin (cfgM m (ok_of_pre m h)).N) (_ : ((cfgM m (ok_of_pre m h)).win 4).flush t = true) :
    (dats m (ok_of_pre m h) 0 c).flushed 4 t = (((cfgM m (ok_of_pre m h)).win 4).blk t).view.read (Elt Ideal) (scores3 m c) := by
  show ((cfgM m (ok_of_pre m h)).win 4).cut (grid0.coords t) ((dats m (ok_of_pre m h) 0 c).after 4 t) = _
  rw [after0_4]
  funext y
  show outsAt0 m (ok_of_pre m h) c t _ = scores3 m c ((((cfgM m (ok_of_pre m h)).win 4).blk t).view.emb y)
  refine (outs_eq m h c t _).trans ?_
  refine congrArg (scores m c) (funext fun a => Fin.ext ?_)
  match a with
  | ⟨0, _⟩ => exact (out_block_lead m (ok_of_pre m h) t y).symm

/-- Every index (b, 0, 0) of the result lies in block b — it is that block's one entry — and point b writes it back. -/
theorem cover (hO : Ok m) (i : S16384x1x1.Idx) :
    ∃ t : Fin (cfgM m hO).N, ((cfgM m hO).win 4).flush t = true ∧ i ∈ (((cfgM m hO).win 4).blk t).view.set := by
  have hN : grid0.N = 16384 := N_0
  have hi0 : (i 0).val < 16384 := (i 0).isLt
  have hi1 : (i 1).val < 1 := (i 1).isLt
  have hi2 : (i 2).val < 1 := (i 2).isLt
  have hlt : (i 0).val < (cfgM m hO).N := by show _ < grid0.N; omega
  refine ⟨⟨(i 0).val, hlt⟩, flush0_4 (adm m hO) _, ?_⟩
  have e : ((((cfgM m hO).win 4).blk ⟨(i 0).val, hlt⟩).view.emb (ix3 (0 : Fin 1) (0 : Fin 1) (0 : Fin 1)) : S16384x1x1.Idx) = i := by
    funext a; refine Fin.ext ?_
    match a with
    | ⟨0, _⟩ =>
      show cc0_transform_4 (grid0.coords ⟨(i 0).val, hlt⟩) 0 * 1 + 1 * 0 = (i 0).val
      rw [out_word]
      show (i 0).val * 1 + 1 * 0 = (i 0).val
      omega
    | ⟨1, _⟩ =>
      show 0 * 1 + 1 * 0 = (i 1).val
      omega
    | ⟨2, _⟩ =>
      show 0 * 1 + 1 * 0 = (i 2).val
      omega
  have hm := View.emb_mem_set (((cfgM m hO).win 4).blk ⟨(i 0).val, hlt⟩).view (ix3 (0 : Fin 1) (0 : Fin 1) (0 : Fin 1))
  exact Eq.mp (congrArg (fun z => z ∈ (((cfgM m hO).win 4).blk ⟨(i 0).val, hlt⟩).view.set) e) hm

/-- So the launch's result array ends holding the scores. -/
theorem final (h : Pre m) (c : Dev nD) :
    (dats m (ok_of_pre m h) 0 c).arrAt 4 (cfgM m (ok_of_pre m h)).N = scores3 m c :=
  (dats m (ok_of_pre m h) 0 c).arrAt_eq_of_cover 4 (scores3 m c) (flushed_eq m h c) (cover m (ok_of_pre m h))

/-- The reshape after the launch drops the two unit axes: the program's result is the score array itself. -/
theorem tail_eq (h : Pre m) (c : Dev nD) :
    Pipeline.afterTail pcfgs (fun _ => adm m (ok_of_pre m h)) (dats m (ok_of_pre m h)) 0 (V0 m) [hostOps1] c main_v5
      = scores m c := by
  have hw : Pipeline.withArrays (Pipeline.pin pcfgs (fun _ => adm m (ok_of_pre m h)) 0).spec c (V0 m c)
      (fun w => (dats m (ok_of_pre m h) 0 c).arrAt w (Pipeline.pin pcfgs (fun _ => adm m (ok_of_pre m h)) 0).N) (Proc.devRef .tc main_v4)
      = scores3 m c :=
    (Pipeline.withArrays_arr spec0 winFacts0.arr_inj c _ _ 4).trans (final m h c)
  unfold Pipeline.afterTail
  show StableHlo.after hostOps1 _ (Proc.devRef .tc main_v5) = _
  after_results
  funext i
  obtain ⟨b, rfl⟩ : ∃ b : Fin 16384, i = ix1 b := ⟨i 0, eq_ix1 i⟩
  show shapeCast S16384 (Pipeline.withArrays (Pipeline.pin pcfgs (fun _ => adm m (ok_of_pre m h)) 0).spec c (V0 m c)
      (fun w => (dats m (ok_of_pre m h) 0 c).arrAt w (Pipeline.pin pcfgs (fun _ => adm m (ok_of_pre m h)) 0).N) (Proc.devRef .tc main_v4))
      Facts₀.shapeCasts_S16384x1x1_S16384 (ix1 b) = _
  refine (shapeCast_apply _ _ (ix1 b) (ix3 b (0 : Fin 1) (0 : Fin 1)) ?_).trans ?_
  · rw [Shape.rowMajor_val_one, Shape.rowMajor_val_three]
    show (b.val * 1 + 0) * 1 + 0 = b.val
    omega
  · exact congrFun hw (ix3 b (0 : Fin 1) (0 : Fin 1))

/-- THE KERNEL'S RUN with its result named: under the precondition every weakly fair execution ends with the result
    holding the scores of the launched arguments, and the arguments as launched. -/
theorem run (h : Pre m) :
    θ_run defs (onTc (τ := τ) (main (F := Ideal))) ⟨m, fun _ => 0, ρ⟩ (fun r => ∀ c : Dev nD,
      r.2.mem ((c.tc : Thread nD τ).loc main_v5) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hq c =>
    ⟨((hq c).2 main_v5 (by decide : main_v5 ∈ Pipeline.restRefs sig spec0)).trans (tail_eq m h c),
      ((hq c).2 main_arg0 (by decide : main_arg0 ∈ Pipeline.restRefs sig spec0)).trans (W_main_arg0 m (ok_of_pre m h) (dats m (ok_of_pre m h)) c),
      ((hq c).2 main_arg1 (by decide : main_arg1 ∈ Pipeline.restRefs sig spec0)).trans (W_main_arg1 m (ok_of_pre m h) (dats m (ok_of_pre m h)) c),
      ((hq c).2 main_arg2 (by decide : main_arg2 ∈ Pipeline.restRefs sig spec0)).trans (W_main_arg2 m (ok_of_pre m h) (dats m (ok_of_pre m h)) c),
      ((hq c).2 main_arg3 (by decide : main_arg3 ∈ Pipeline.restRefs sig spec0)).trans (W_main_arg3 m (ok_of_pre m h) (dats m (ok_of_pre m h)) c),
      ((hq c).2 main_arg4 (by decide : main_arg4 ∈ Pipeline.restRefs sig spec0)).trans (W_main_arg4 m (ok_of_pre m h) (dats m (ok_of_pre m h)) c),
      ((hq c).2 main_arg5 (by decide : main_arg5 ∈ Pipeline.restRefs sig spec0)).trans (W_main_arg5 m (ok_of_pre m h) (dats m (ok_of_pre m h)) c)⟩)
    (run_main m ρ (ok_of_pre m h))

end Cert.KernelIdeal.ScoreValue

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.RefScore.lean ====
/-
  The reference computes the score. Its lookups are gathers whose start index is the index word, first wrapped (a
  negative word has the table's length added) and then kept inside the table. For a nonnegative word the wrap is not
  taken, and what is left is exactly the row `rowOf` names. The products of the two gathered rows are summed over the
  hundred columns starting from zero, the two gathered biases and one half are added in the same order as in the score.
-/
import proofs.«407264_j39350490366306_2_alg».proof.Proof.Gen.ReferenceIdeal.Read
import proofs.«407264_j39350490366306_2_alg».proof.Proof.LibRowGather
import proofs.«407264_j39350490366306_2_alg».proof.Proof.LibHostIndex
import proofs.«407264_j39350490366306_2_alg».proof.Proof.Score
import Idealize.ShloMosaic.Lib.Affine

set_option maxRecDepth 16384

noncomputable section

open scoped BigOperators

namespace Cert.ReferenceIdeal.RefScore

open Cert.ReferenceIdeal Cert.ReferenceIdeal.Gen Cert.ReferenceIdeal.Read Cert.GatherDot
open Idealize.ShloMosaic Idealize.ShloMosaic.ValueIdx

/-- A nonnegative word is not below zero, so the wrap of negative indices leaves it alone. -/
theorem wrap_nonneg (w : BitVec 32) (h : 0 ≤ w.toInt) :
    Scalar.select (IntOp.cmpi .slt w 0#32) (IntOp.addi w 1000000#32) w = w := by
  have hc : IntOp.cmpi .slt w 0#32 = 0#1 := eq_zero_of_ne_one fun h1 => by
    have := IntOp.cmpi_slt.1 h1
    have z : (0#32 : BitVec 32).toInt = 0 := by decide
    omega
  rw [hc, select_zero]

/-- The start-index column built from the user words reads, at row b, the word of position b (when nonnegative). -/
theorem user_start (x0 : IVec S16384 32) (h0 : ∀ i, 0 ≤ (x0 i).toInt) (b : Fin 16384) :
    val_main_v5 (F := Ideal) x0 (ix2 b (⟨0, Nat.one_pos⟩ : Fin 1)) = x0 (ix1 b) := by
  rw [val_main_v5_apply, val_main_v4_apply, val_main_v1_apply, val_main_v3_apply, val_main_v0_apply, val_main_v2_apply,
    val_main_c_apply, val_main_c_0_apply]
  have e : idx_main_v5 (ix2 b (⟨0, Nat.one_pos⟩ : Fin 1)) = ix1 b := funext fun a => by match a with | ⟨0, _⟩ => rfl
  rw [e]
  exact wrap_nonneg _ (h0 _)

/-- The same column built for the user bias lookup. -/
theorem user_start' (x0 : IVec S16384 32) (h0 : ∀ i, 0 ≤ (x0 i).toInt) (b : Fin 16384) :
    val_main_v19 (F := Ideal) x0 (ix2 b (0 : Fin 1)) = x0 (ix1 b) := by
  rw [val_main_v19_apply, val_main_v18_apply, val_main_v15_apply, val_main_v17_apply, val_main_v14_apply, val_main_v16_apply,
    val_main_c_3_apply, val_main_c_4_apply]
  have e : idx_main_v19 (ix2 b (0 : Fin 1)) = ix1 b := funext fun a => by match a with | ⟨0, _⟩ => rfl
  rw [e]
  exact wrap_nonneg _ (h0 _)

/-- The start-index column built from the feed words. -/
theorem feed_start (x1 : IVec S16384 32) (h1 : ∀ i, 0 ≤ (x1 i).toInt) (b : Fin 16384) :
    val_main_v12 (F := Ideal) x1 (ix2 b (⟨0, Nat.one_pos⟩ : Fin 1)) = x1 (ix1 b) := by
  rw [val_main_v12_apply, val_main_v11_apply, val_main_v8_apply, val_main_v10_apply, val_main_v7_apply, val_main_v9_apply,
    val_main_c_1_apply, val_main_c_2_apply]
  have e : idx_main_v12 (ix2 b (⟨0, Nat.one_pos⟩ : Fin 1)) = ix1 b := funext fun a => by match a with | ⟨0, _⟩ => rfl
  rw [e]
  exact wrap_nonneg _ (h1 _)

/-- The same column built for the feed bias lookup. -/
theorem feed_start' (x1 : IVec S16384 32) (h1 : ∀ i, 0 ≤ (x1 i).toInt) (b : Fin 16384) :
    val_main_v26 (F := Ideal) x1 (ix2 b (0 : Fin 1)) = x1 (ix1 b) := by
  rw [val_main_v26_apply, val_main_v25_apply, val_main_v22_apply, val_main_v24_apply, val_main_v21_apply, val_main_v23_apply,
    val_main_c_5_apply, val_main_c_6_apply]
  have e : idx_main_v26 (ix2 b (0 : Fin 1)) = ix1 b := funext fun a => by match a with | ⟨0, _⟩ => rfl
  rw [e]
  exact wrap_nonneg _ (h1 _)

/-- The gathered user latent rows: entry (b, k) is the table at row `rowOf users[b]`, column k. -/
theorem user_rows (x0 : IVec S16384 32) (x2 : FVec Ideal S1000000x100 .f32) (h0 : ∀ i, 0 ≤ (x0 i).toInt) (b : Fin 16384) (k : Fin 100) :
    val_main_v6 (F := Ideal) x0 x2 (ix2 b k) = x2 (ix2 (rowOf (x0 (ix1 b))) k) := by
  unfold val_main_v6
  refine (Cert.Lib.RowGather.rowGather_apply (N := 1000000) (C := 100) (E := 16384) (by decide)
    Facts₀.gather_S1000000x100_S16384x1_S16384x100_1_0_n_n_0_1_1100_wf x2 (val_main_v5 (F := Ideal) x0) b k).trans ?_
  refine congrArg (fun r => x2 (ix2 r k)) (Fin.ext ?_)
  show min (val_main_v5 (F := Ideal) x0 (ix2 b (⟨0, Nat.one_pos⟩ : Fin 1))).toInt.toNat (1000000 - 1) = min (x0 (ix1 b)).toInt.toNat (1000000 - 1)
  rw [user_start x0 h0 b]

/-- The gathered feed latent rows. -/
theorem feed_rows (x1 : IVec S16384 32) (x3 : FVec Ideal S1000000x100 .f32) (h1 : ∀ i, 0 ≤ (x1 i).toInt) (b : Fin 16384) (k : Fin 100) :
    val_main_v13 (F := Ideal) x1 x3 (ix2 b k) = x3 (ix2 (rowOf (x1 (ix1 b))) k) := by
  unfold val_main_v13
  refine (Cert.Lib.RowGather.rowGather_apply (N := 1000000) (C := 100) (E := 16384) (by decide)
    Facts₀.gather_S1000000x100_S16384x1_S16384x100_1_0_n_n_0_1_1100_wf x3 (val_main_v12 (F := Ideal) x1) b k).trans ?_
  refine congrArg (fun r => x3 (ix2 r k)) (Fin.ext ?_)
  show min (val_main_v12 (F := Ideal) x1 (ix2 b (⟨0, Nat.one_pos⟩ : Fin 1))).toInt.toNat (1000000 - 1) = min (x1 (ix1 b)).toInt.toNat (1000000 - 1)
  rw [feed_start x1 h1 b]

/-- The gathered user biases: entry b is the bias at `rowOf users[b]`. -/
theorem user_biases (x0 : IVec S16384 32) (x4 : FVec Ideal S1000000 .f32) (h0 : ∀ i, 0 ≤ (x0 i).toInt) (b : Fin 16384) :
    val_main_v20 (F := Ideal) x0 x4 (ix1 b) = x4 (ix1 (rowOf (x0 (ix1 b)))) := by
  unfold val_main_v20
  refine (Cert.Lib.HostIndex.gather_take1_apply (N := 1000000) (R := 16384) (by decide)
    Facts₀.gather_S1000000_S16384x1_S16384_n_0_n_n_0_1_1_wf x4 (val_main_v19 (F := Ideal) x0) (ix1 b)).trans ?_
  refine congrArg (fun r => x4 (ix1 r)) (Fin.ext ?_)
  show min (val_main_v19 (F := Ideal) x0 (ix2 b (0 : Fin 1))).toInt.toNat (1000000 - 1) = min (x0 (ix1 b)).toInt.toNat (1000000 - 1)
  rw [user_start' x0 h0 b]

/-- The gathered feed biases. -/
theorem feed_biases (x1 : IVec S16384 32) (x5 : FVec Ideal S1000000 .f32) (h1 : ∀ i, 0 ≤ (x1 i).toInt) (b : Fin 16384) :
    val_main_v27 (F := Ideal) x1 x5 (ix1 b) = x5 (ix1 (rowOf (x1 (ix1 b)))) := by
  unfold val_main_v27
  refine (Cert.Lib.HostIndex.gather_take1_apply (N := 1000000) (R := 16384) (by decide)
    Facts₀.gather_S1000000_S16384x1_S16384_n_0_n_n_0_1_1_wf x5 (val_main_v26 (F := Ideal) x1) (ix1 b)).trans ?_
  refine congrArg (fun r => x5 (ix1 r)) (Fin.ext ?_)
  show min (val_main_v26 (F := Ideal) x1 (ix2 b (0 : Fin 1))).toInt.toNat (1000000 - 1) = min (x1 (ix1 b)).toInt.toNat (1000000 - 1)
  rw [feed_start' x1 h1 b]

/-- THE REFERENCE'S RESULT IS THE SCORE, for index arrays of nonnegative words. -/
theorem result_eq_score (x0 x1 : IVec S16384 32) (x2 x3 : FVec Ideal S1000000x100 .f32) (x4 x5 : FVec Ideal S1000000 .f32)
    (h0 : ∀ i, 0 ≤ (x0 i).toInt) (h1 : ∀ i, 0 ≤ (x1 i).toInt) :
    val_main_v33 (F := Ideal) x0 x1 x2 x3 x4 x5 = score x0 x1 x2 x3 x4 x5 := by
  funext i
  obtain ⟨b, rfl⟩ : ∃ b : Fin 16384, i = ix1 b := ⟨i 0, eq_ix1 i⟩
  rw [val_main_v33_apply, val_main_v31_apply, val_main_v30_apply, val_main_v29_apply, val_main_v32_apply,
    val_main_cst_7_apply, val_main_cst_apply, user_biases x0 x4 h0 b, feed_biases x1 x5 h1 b]
  have hs : ∀ k : Fin 100, val_main_v28 (F := Ideal) x0 x1 x2 x3 (idx_main_v29 (ix1 b) k)
      = x2 (ix2 (rowOf (x0 (ix1 b))) k) * x3 (ix2 (rowOf (x1 (ix1 b))) k) := fun k => by
    have e : idx_main_v29 (ix1 b) k = ix2 b k := funext fun a => by match a with | ⟨0, _⟩ => rfl | ⟨1, _⟩ => rfl
    rw [e, val_main_v28_apply, user_rows x0 x2 h0 b k, feed_rows x1 x3 h1 b k]
    rfl
  simp only [hs]
  unfold score
  simp only [Ideal.addf_def, Ideal.ofBits_def, Ideal.ofBits_zero_f32, zero_add]

end Cert.ReferenceIdeal.RefScore

end
-- ==== Proof.lean ====
/-
  A recommender's scoring step: for each of 16384 (user, feed) pairs, the inner product of the user's and the feed's
  rows of two [10^6, 100] latent tables, plus the user's and the feed's biases, plus one half. The kernel runs one grid
  point per pair, fetching the two rows and the two bias entries that the pair's index words name and computing the
  score on chip; the reference gathers the rows and biases on the host and reduces over the columns.

  The kernel uses an index word as it is (unsigned), the reference wraps a negative word and then keeps it inside the
  table, so the two agree exactly where every index word is a row number, 0 ≤ word < 10^6: the stated precondition
  (beside the finiteness of the float arrays, which this proof never needs: only commutative, associative sums and the
  rule 0 + x = x are used, and those hold for all extended reals). Under it
    · every block the launch fetches lies inside its array (TablesWord, TablesIdeal), which is what the two kernel frames
      ask for;
    · the kernel's result is the score array (KernelValue: the body's one stored number per point, the blocks of the
      result tiling it, the reshape that drops the unit axes);
    · the reference's result is the score array (RefScore: the gathers read at an index, the row sum as a finite sum).
  The idealization rewrote nothing, so the kernel and its idealization are one text and `preserves` has nothing to state.
-/
import proofs.«407264_j39350490366306_2_alg».proof.Defs
import proofs.«407264_j39350490366306_2_alg».proof.Proof.Gen.Kernel
import proofs.«407264_j39350490366306_2_alg».proof.Proof.Gen.Kernel.Frame
import proofs.«407264_j39350490366306_2_alg».proof.Proof.Gen.KernelIdeal
import proofs.«407264_j39350490366306_2_alg».proof.Proof.Gen.KernelIdeal.Frame
import proofs.«407264_j39350490366306_2_alg».proof.Proof.Gen.ReferenceIdeal
import proofs.«407264_j39350490366306_2_alg».proof.Proof.Gen.Pre_finite_inputs
import proofs.«407264_j39350490366306_2_alg».proof.Proof.Gen.ReferenceIdeal.Run
import proofs.«407264_j39350490366306_2_alg».proof.Proof.Gen.ReferenceIdeal.Read
import proofs.«407264_j39350490366306_2_alg».proof.Proof.TablesWord
import proofs.«407264_j39350490366306_2_alg».proof.Proof.KernelValue
import proofs.«407264_j39350490366306_2_alg».proof.Proof.RefScore
import Idealize.ShloMosaic.Adequacy
import Idealize.ShloMosaic.Init

noncomputable section

namespace Cert.Proof

open Idealize.ShloMosaic Idealize.SL.Sem

/-- The word-level kernel runs and keeps its arguments: its launch's blocks are inside their arrays. -/
theorem frame_kernel : Cert.frame_Kernel := fun m ρ h =>
  Cert.Kernel.Gen.frame m ρ (Cert.Kernel.Tables.ok_of_pre m h)

/-- So does the idealized kernel. -/
theorem frame_kernel_ideal : Cert.frame_KernelIdeal := fun m ρ h =>
  Cert.KernelIdeal.Gen.frame m ρ (Cert.KernelIdeal.Tables.ok_of_pre m h)

/-- The reference is a straight line of host operations: it runs and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the score array of the (agreeing) arguments. -/
theorem algebraic : Cert.algebraic_KernelIdeal_ReferenceIdeal := by
  intro m ρ m' ρ' hpre hagree
  refine ⟨fun c => Cert.KernelIdeal.ScoreValue.scores m c, Cert.KernelIdeal.ScoreValue.run m ρ hpre, ?_⟩
  refine (θ_run Cert.ReferenceIdeal.defs _ _).mono (fun _ h c => ⟨(h c).1.trans ?_, (h c).2⟩)
    (Cert.ReferenceIdeal.Value.run (F := Ideal) m' ρ')
  have hr := Cert.GatherDot.index_ranges _ _ _ _ _ _ (hpre c)
  rw [Cert.ReferenceIdeal.Read.val_main_v33_eq, (hagree c).1, (hagree c).2.1, (hagree c).2.2.1, (hagree c).2.2.2.1,
    (hagree c).2.2.2.2.1, (hagree c).2.2.2.2.2]
  exact Cert.ReferenceIdeal.RefScore.result_eq_score _ _ _ _ _ _ (fun i => (hr.1 i).1) (fun i => (hr.2 i).1)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
